-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S262144 : Shape := ⟨1, ![262144]⟩
abbrev S1 : Shape := ⟨1, ![1]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1 : S_.BroadcastsInDim S1 (![] : Fin 0 → Fin S1.rank)
  reducesTo_S1_S_d0 : S1.ReducesTo [0] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8x4096x1024 .f32) (main_arg1 : IVec S262144 32) (main_arg2 : FVec F S1 .f32) (main_arg3 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8x4096x1024 : Shape := ⟨3, ![8, 4096, 1024]⟩
abbrev S262144 : Shape := ⟨1, ![262144]⟩
abbrev S1 : Shape := ⟨1, ![1]⟩
abbrev S1024 : Shape := ⟨1, ![1024]⟩
abbrev S4 : Shape := ⟨1, ![4]⟩
abbrev S32768x1024 : Shape := ⟨2, ![32768, 1024]⟩
abbrev S1x262144 : Shape := ⟨2, ![1, 262144]⟩
abbrev S4x1 : Shape := ⟨2, ![4, 1]⟩
abbrev S4x262144 : Shape := ⟨2, ![4, 262144]⟩
abbrev S_ : Shape := ⟨0, ![]⟩
abbrev S1048576 : Shape := ⟨1, ![1048576]⟩
abbrev S1024x1024 : Shape := ⟨2, ![1024, 1024]⟩
abbrev S1x1 : Shape := ⟨2, ![1, 1]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 28
  | .vmem => 6
  | .smem => 0
  | _ => 0

abbrev bufTy : (tb : Table) → Fin (tcTables nBuf tb) → BufTy
  | .hbm, ⟨0, _⟩ => ⟨S8x4096x1024, .f32⟩
  | .hbm, ⟨1, _⟩ => ⟨S262144, .i32⟩
  | .hbm, ⟨2, _⟩ => ⟨S1, .f32⟩
  | .hbm, ⟨3, _⟩ => ⟨S1024, .f32⟩
  | .hbm, ⟨4, _⟩ => ⟨S4, .i32⟩
  | .hbm, ⟨5, _⟩ => ⟨S32768x1024, .f32⟩
  | .hbm, ⟨6, _⟩ => ⟨S1x262144, .i32⟩
  | .hbm, ⟨7, _⟩ => ⟨S4x1, .i32⟩
  | .hbm, ⟨8, _⟩ => ⟨S4x262144, .i32⟩
  | .hbm, ⟨9, _⟩ => ⟨S4x262144, .i32⟩
  | .hbm, ⟨10, _⟩ => ⟨S4x262144, .i32⟩
  | .hbm, ⟨11, _⟩ => ⟨S_, .i32⟩
  | .hbm, ⟨12, _⟩ => ⟨S4x262144, .i32⟩
  | .hbm, ⟨13, _⟩ => ⟨S4x262144, .i32⟩
  | .hbm, ⟨14, _⟩ => ⟨S1048576, .i32⟩
  | .hbm, ⟨15, _⟩ => ⟨S1048576, .f32⟩
  | .hbm, ⟨16, _⟩ => ⟨S_, .f32⟩
  | .hbm, ⟨17, _⟩ => ⟨S1048576, .f32⟩
  | .hbm, ⟨18, _⟩ => ⟨S1048576, .f32⟩
  | .hbm, ⟨19, _⟩ => ⟨S1024x1024, .f32⟩
  | .hbm, ⟨20, _⟩ => ⟨S1x1, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .bf16⟩
  | .hbm, ⟨25, _⟩ => ⟨S1x1024, .f32⟩
  | .hbm, ⟨26, _⟩ => ⟨S32768x1024, .f32⟩
  | .hbm, ⟨27, _⟩ => ⟨S8x4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_0 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_cst : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_call0_v17 : Ref sig .tc := ⟨.hbm, 24, rfl⟩
abbrev main_call0_v18 : Ref sig .tc := ⟨.hbm, 25, rfl⟩
abbrev main_call0_v19 : Ref sig .tc := ⟨.hbm, 26, rfl⟩
abbrev main_v0 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x4096x1024_S32768x1024 : S8x4096x1024.ShapeCasts S32768x1024
  bcast_S262144_S1x262144_1 : S262144.BroadcastsInDim S1x262144 (![1] : Fin 1 → Fin S1x262144.rank)
  bcast_S4_S4x1_0 : S4.BroadcastsInDim S4x1 (![0] : Fin 1 → Fin S4x1.rank)
  bcast_S1x262144_S4x262144_0_1 : S1x262144.BroadcastsInDim S4x262144 (![0, 1] : Fin 2 → Fin S4x262144.rank)
  bcast_S4x1_S4x262144_0_1 : S4x1.BroadcastsInDim S4x262144 (![0, 1] : Fin 2 → Fin S4x262144.rank)
  bcast_S_S4x262144 : S_.BroadcastsInDim S4x262144 (![] : Fin 0 → Fin S4x262144.rank)
  shapeCasts_S4x262144_S1048576 : S4x262144.ShapeCasts S1048576
  bcast_S_S1048576 : S_.BroadcastsInDim S1048576 (![] : Fin 0 → Fin S1048576.rank)
  shapeCasts_S1048576_S1024x1024 : S1048576.ShapeCasts S1024x1024
  bcast_S1_S1x1_1 : S1.BroadcastsInDim S1x1 (![1] : Fin 1 → Fin S1x1.rank)
  bcast_S1x1_S1024x1024_0_1 : S1x1.BroadcastsInDim S1024x1024 (![0, 1] : Fin 2 → Fin S1024x1024.rank)
  transposes_S1024x1024_S1024x1024_1_0 : S1024x1024.Transposes [1, 0] S1024x1024
  bitsLt_bf16_f32 : FTy.bits .bf16 < FTy.bits .f32
  shapeCasts_S1024_S1x1024 : S1024.ShapeCasts S1x1024
  shapeCasts_S32768x1024_S8x4096x1024 : S32768x1024.ShapeCasts S8x4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  broadcasts_S512x1_S512x1024 : S512x1.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S32768x1024.size a
  hwx0_3 : ∀ i : grid0.Coords, EltTy.bits .f32 = 32 ∨ (Rect.block (s := S32768x1024) S512x1024.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_call0_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v17) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v18) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v19) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S262144 : Shape := ⟨1, ![262144]⟩
abbrev S1 : Shape := ⟨1, ![1]⟩
abbrev S1024 : Shape := ⟨1, ![1024]⟩
abbrev S4 : Shape := ⟨1, ![4]⟩
abbrev S1x262144 : Shape := ⟨2, ![1, 262144]⟩
abbrev S4x1 : Shape := ⟨2, ![4, 1]⟩
abbrev S4x262144 : Shape := ⟨2, ![4, 262144]⟩
abbrev S_ : Shape := ⟨0, ![]⟩
abbrev S1048576 : Shape := ⟨1, ![1048576]⟩
abbrev S1024x1024 : Shape := ⟨2, ![1024, 1024]⟩
abbrev S1x1 : Shape := ⟨2, ![1, 1]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S262144, .i32⟩
  | .hbm, ⟨2, _⟩ => ⟨S1, .f32⟩
  | .hbm, ⟨3, _⟩ => ⟨S1024, .f32⟩
  | .hbm, ⟨4, _⟩ => ⟨S4, .i32⟩
  | .hbm, ⟨5, _⟩ => ⟨S1x262144, .i32⟩
  | .hbm, ⟨6, _⟩ => ⟨S4x1, .i32⟩
  | .hbm, ⟨7, _⟩ => ⟨S4x262144, .i32⟩
  | .hbm, ⟨8, _⟩ => ⟨S4x262144, .i32⟩
  | .hbm, ⟨9, _⟩ => ⟨S4x262144, .i32⟩
  | .hbm, ⟨10, _⟩ => ⟨S_, .i32⟩
  | .hbm, ⟨11, _⟩ => ⟨S4x262144, .i32⟩
  | .hbm, ⟨12, _⟩ => ⟨S4x262144, .i32⟩
  | .hbm, ⟨13, _⟩ => ⟨S1048576, .i32⟩
  | .hbm, ⟨14, _⟩ => ⟨S1048576, .f32⟩
  | .hbm, ⟨15, _⟩ => ⟨S_, .f32⟩
  | .hbm, ⟨16, _⟩ => ⟨S1048576, .f32⟩
  | .hbm, ⟨17, _⟩ => ⟨S1048576, .f32⟩
  | .hbm, ⟨18, _⟩ => ⟨S1024x1024, .f32⟩
  | .hbm, ⟨19, _⟩ => ⟨S1x1, .f32⟩
  | .hbm, ⟨20, _⟩ => ⟨S1024x1024, .f32⟩
  | .hbm, ⟨21, _⟩ => ⟨S1024x1024, .f32⟩
  | .hbm, ⟨22, _⟩ => ⟨S8x4096x1024, .f32⟩
  | .hbm, ⟨23, _⟩ => ⟨S_, .f32⟩
  | .hbm, ⟨24, _⟩ => ⟨S8x4096, .f32⟩
  | .hbm, ⟨25, _⟩ => ⟨S8x4096x1, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S_, .f32⟩
  | .hbm, ⟨30, _⟩ => ⟨S8x4096x1, .f32⟩
  | .hbm, ⟨31, _⟩ => ⟨S8x4096x1, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S1x1x1024, .f32⟩
  | .hbm, ⟨47, _⟩ => ⟨S8x4096x1024, .f32⟩
  | .hbm, ⟨48, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_cst_5 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]

class Facts₀ : Prop where
  bcast_S262144_S1x262144_1 : S262144.BroadcastsInDim S1x262144 (![1] : Fin 1 → Fin S1x262144.rank)
  bcast_S4_S4x1_0 : S4.BroadcastsInDim S4x1 (![0] : Fin 1 → Fin S4x1.rank)
  bcast_S1x262144_S4x262144_0_1 : S1x262144.BroadcastsInDim S4x262144 (![0, 1] : Fin 2 → Fin S4x262144.rank)
  bcast_S4x1_S4x262144_0_1 : S4x1.BroadcastsInDim S4x262144 (![0, 1] : Fin 2 → Fin S4x262144.rank)
  bcast_S_S4x262144 : S_.BroadcastsInDim S4x262144 (![] : Fin 0 → Fin S4x262144.rank)
  shapeCasts_S4x262144_S1048576 : S4x262144.ShapeCasts S1048576
  bcast_S_S1048576 : S_.BroadcastsInDim S1048576 (![] : Fin 0 → Fin S1048576.rank)
  shapeCasts_S1048576_S1024x1024 : S1048576.ShapeCasts S1024x1024
  bcast_S1_S1x1_1 : S1.BroadcastsInDim S1x1 (![1] : Fin 1 → Fin S1x1.rank)
  bcast_S1x1_S1024x1024_0_1 : S1x1.BroadcastsInDim S1024x1024 (![0, 1] : Fin 2 → Fin S1024x1024.rank)
  reducesTo_S8x4096x1024_S8x4096_d2 : S8x4096x1024.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  bcast_S_S8x4096x1024 : S_.BroadcastsInDim S8x4096x1024 (![] : Fin 0 → Fin S8x4096x1024.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x1024_S1024x1024_S8x4096x1024_2_1_01_0_n_n_wf : DotDims.WF S8x4096x1024 S1024x1024 S8x4096x1024 [2] [1] [0, 1] [0] [] []

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf

class Facts : Prop extends Facts₀ where

variable [Facts]
-- ==== Proof.Quant.lean ====
/-
  The mathematics both programs compute, stated once over the extended reals and free of any program.

  A row r of 1024 numbers is fake-quantised to eight bits: with a = max(max_k |r k|, ε) (the fold of max starting
  from −∞, ε the binary32 number nearest 1e-5) and s = 127 / a, entry k becomes
  clip(round_half_even(r k · s), −128, 127) / s.  The layer's output at (row, o) is the inner product of the
  quantised row with row o of the weight table, plus the bias at o.
-/
import Idealize.ShloMosaic.PureOps.Ideal
import Idealize.ShloMosaic.PureOps.Ideal.Laws
import Idealize.ShloMosaic.Lib.ValueIdx

noncomputable section

namespace Cert.Quant

open Idealize.ShloMosaic Idealize.ShloMosaic.ValueIdx

/-- The largest magnitude in a row of n entries, the fold of `max` over them from −∞ (|v| is max v (−v)). -/
def amax {n : ℕ} (r : Fin n → EReal) : EReal :=
  (Finset.univ : Finset (Fin n)).fold max (Ideal.ofBits .f32 0xFF800000#32) (fun k => max (r k) (-(r k)))

/-- The row's quantisation scale 127 / max(amax, ε). -/
def scale {n : ℕ} (r : Fin n → EReal) : EReal :=
  Ideal.div (Ideal.ofBits .f32 0x42FE0000#32) (max (amax r) (Ideal.ofBits .f32 0x3727C5AC#32))

/-- Entry k of the row after quantising and de-quantising: clip(round(r k · s), −128, 127) / s. -/
def fq {n : ℕ} (r : Fin n → EReal) (k : Fin n) : EReal :=
  Ideal.div (min (Ideal.ofBits .f32 0x42FE0000#32) (max (Ideal.ofBits .f32 0xC3000000#32)
    (Ideal.liftRound Ideal.roundHalfEven (r k * scale r)))) (scale r)

/-- The layer at batch b, position s, output feature o: Σ_k fq(x b s) k · w o k + bias o. -/
def linear (x : Fin 8 → Fin 4096 → Fin 1024 → EReal) (w : Fin 1024 → Fin 1024 → EReal) (bias : Fin 1024 → EReal)
    (b : Fin 8) (s : Fin 4096) (o : Fin 1024) : EReal :=
  (∑ k : Fin 1024, fq (x b s) k * w o k) + bias o

/-- The same as an array over [8, 4096, 1024], of arrays over [8, 4096, 1024], [1024, 1024] and [1024]. -/
def out (X : (⟨3, ![8, 4096, 1024]⟩ : Shape).Idx → EReal) (W : (⟨2, ![1024, 1024]⟩ : Shape).Idx → EReal)
    (B : (⟨1, ![1024]⟩ : Shape).Idx → EReal) : (⟨3, ![8, 4096, 1024]⟩ : Shape).Idx → EReal :=
  fun j => linear (fun a b c => X (ix3 a b c)) (fun o k => W (ix2 o k)) (fun o => B (ix1 o)) (j 0) (j 1) (j 2)

theorem out_ix3 (X : (⟨3, ![8, 4096, 1024]⟩ : Shape).Idx → EReal) (W : (⟨2, ![1024, 1024]⟩ : Shape).Idx → EReal)
    (B : (⟨1, ![1024]⟩ : Shape).Idx → EReal) (b : Fin 8) (s : Fin 4096) (o : Fin 1024) :
    out X W B (ix3 b s o) = (∑ k : Fin 1024, fq (fun k' => X (ix3 b s k')) k * W (ix2 o k)) + B (ix1 o) := rfl

end Cert.Quant

end
-- ==== Proof.KerBody.lean ====
/-
  What the kernel's body stores, read at one entry.  On a block of 512 rows the body takes each row's largest
  magnitude (a maximum over the 1024 lanes, from −∞), forms the row's scale 127 / max(·, ε), multiplies, rounds to the
  nearest even integer, clips to [−128, 127] and divides by the scale again: entry (p, k) of that intermediate is
  `Quant.fq` of row p at k.  The matrix product with the resident [1024, 1024] operand is, at (p, o), the sum over the
  1024 contracted positions k of the quantised entry (p, k) times the operand's entry (k, o); the bias row is added.
-/
import proofs.«430797_j53987738911497_1_alg».proof.Proof.Gen.KernelIdeal.Skeleton
import proofs.«430797_j53987738911497_1_alg».proof.Proof.Quant
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Quant

-- the exact quotient, a literal's value and the rounding are used as opaque functions throughout: nothing below evaluates one
attribute [local irreducible] Ideal.div Ideal.ofBits Ideal.liftRound

/-! ## Layout steps at an entry -/

/-- The index of a [512, 1024] block over row p with lane k put back is (p, k). -/
theorem lift_eq (h : S512x1024.Reduces [1] S512) (p : Fin 512) (k : Fin (S512x1024.size 1)) : h.lift (ix1 p) k = ix2 p k :=
  funext fun a => match a with
    | ⟨0, _⟩ => Fin.ext rfl
    | ⟨1, _⟩ => Fin.ext rfl

/-- A vector of 512 row values cast to a column reads, in row p, the row's value. -/
theorem column_apply {α : Type} (v : S512.Idx → α) (h : S512.ShapeCasts S512x1) (p : Fin 512) (u : Fin 1) :
    shapeCast S512x1 v h (ix2 p u) = v (ix1 p) :=
  shapeCast_apply v h _ _ (by
    have hu : u.val = 0 := by omega
    rw [Shape.rowMajor_val_two, Shape.rowMajor_val_one]
    show p.val = p.val * 1 + u.val
    omega)

/-- A column broadcast along the lanes reads, at (p, k), the column's row p. -/
theorem lanes_apply {α : Type} (v : S512x1.Idx → α) (h : S512x1.Broadcasts S512x1024) (p : Fin 512) (k : Fin 1024) :
    broadcastTo S512x1024 v h (ix2 p k) = v (ix2 p (0 : Fin 1)) := by
  refine broadcastTo_apply v h (ix2 p k) (ix2 p (0 : Fin 1)) fun ax => ?_
  match ax with
  | ⟨0, _⟩ => rfl
  | ⟨1, _⟩ => rfl

/-! ## The per-row quantisation -/

/-- A row's largest magnitude: the lane maximum of |x| in row p is the fold over the row's 1024 entries. -/
theorem rowmax_apply (x : FVec Ideal S512x1024 .f32) (h : S512x1024.Reduces [1] S512) (hφ : FKind.Formats .f32)
    (hacc : (0xFF800000#32 : BitVec 32) = FKind.maximumf.neutral .f32 hφ) (p : Fin 512) :
    multiReduction .maximumf [1] S512 (absf x) 0xFF800000#32 h hφ hacc (ix1 p) = amax (fun k => x (ix2 p k)) := by
  rw [Ideal.multiReduction_maximumf_single]
  have e : (fun k : Fin (S512x1024.size 1) => x (h.lift (ix1 p) k)) = fun k => x (ix2 p k) :=
    funext fun k => congrArg x (lift_eq h p k)
  exact (show _ = amax (n := S512x1024.size 1) (fun k => x (h.lift (ix1 p) k)) from rfl).trans (congrArg amax e)

/-- The column of row scales 127 / max(row maximum, ε), as the body spells it. -/
def scaleCol (x : FVec Ideal S512x1024 .f32) : FVec Ideal S512x1 .f32 :=
  divf (broadcast S512x1 (Scalar.ofBits .f32 0x42FE0000#32))
    (maximumf (shapeCast S512x1 (multiReduction .maximumf [1] S512 (absf x) 0xFF800000#32 reduces_S512x1024_S512 (.inl rfl) rfl) shapeCasts_S512_S512x1)
      (broadcast S512x1 (Scalar.ofBits .f32 0x3727C5AC#32)))

theorem scaleCol_apply (x : FVec Ideal S512x1024 .f32) (p : Fin 512) :
    scaleCol x (ix2 p (0 : Fin 1)) = scale (fun k => x (ix2 p k)) := by
  have e1 := column_apply (multiReduction .maximumf [1] S512 (absf x) 0xFF800000#32 reduces_S512x1024_S512 (.inl rfl) rfl)
    shapeCasts_S512_S512x1 p 0
  have e2 := rowmax_apply x reduces_S512x1024_S512 (.inl rfl) rfl p
  exact congrArg (fun a => Ideal.div (Ideal.ofBits .f32 0x42FE0000#32) (max a (Ideal.ofBits .f32 0x3727C5AC#32)))
    (e1.trans e2)

/-- The quantised and de-quantised block, as the body spells it. -/
def dqBlock (x : FVec Ideal S512x1024 .f32) : FVec Ideal S512x1024 .f32 :=
  divf (minimumf (broadcast S512x1024 (Scalar.ofBits .f32 0x42FE0000#32))
      (maximumf (broadcast S512x1024 (Scalar.ofBits .f32 0xC3000000#32))
        (roundeven (mulf x (broadcastTo S512x1024 (scaleCol x) broadcasts_S512x1_S512x1024)))))
    (broadcastTo S512x1024 (scaleCol x) broadcasts_S512x1_S512x1024)

theorem dqBlock_apply (x : FVec Ideal S512x1024 .f32) (p : Fin 512) (k : Fin 1024) :
    dqBlock x (ix2 p k) = fq (fun k' => x (ix2 p k')) k := by
  have e : broadcastTo S512x1024 (scaleCol x) broadcasts_S512x1_S512x1024 (ix2 p k) = scale (fun k' => x (ix2 p k')) :=
    (lanes_apply (scaleCol x) broadcasts_S512x1_S512x1024 p k).trans (scaleCol_apply x p)
  exact congrArg (fun s => Ideal.div (min (Ideal.ofBits .f32 0x42FE0000#32) (max (Ideal.ofBits .f32 0xC3000000#32)
    (Ideal.liftRound Ideal.roundHalfEven (x (ix2 p k) * s)))) s) e

/-! ## The matrix product at an entry -/

theorem lhs_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Into the zero accumulator the product at (p, o) is the sum over the contracted position k of left (p, k) times
    right (k, o). -/
theorem product_apply (l : FVec Ideal S512x1024 .bf16) (r : FVec Ideal S1024x1024 .bf16) (p : Fin 512) (o : Fin 1024) :
    matmul dot_S512x1024_S1024x1024_S512x1024_1_0_0_1_n_n none l r (constant S512x1024 .f32 0x00000000#32) (ix2 p o)
      = ∑ k : Fin 1024, l (ix2 p k) * r (ix2 k o) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p o) ((contrEquiv1 dot_S512x1024_S1024x1024_S512x1024_1_0_0_1_n_n 1024 rfl rfl).symm k) = ix2 p k := funext fun a => Fin.ext (by
    match a with
    | ⟨0, _⟩ => exact lhs_0 _ _
    | ⟨1, _⟩ => exact (lhs_1 _ _).trans hk)
  have er : dot_S512x1024_S1024x1024_S512x1024_1_0_0_1_n_n.rhsIdx (ix2 p o) ((contrEquiv1 dot_S512x1024_S1024x1024_S512x1024_1_0_0_1_n_n 1024 rfl rfl).symm k) = ix2 k o := funext fun a => Fin.ext (by
    match a with
    | ⟨0, _⟩ => exact (rhs_0 _ _).trans hk
    | ⟨1, _⟩ => exact rhs_1 _ _)
  rw [el, er]

/-! ## The stored value -/

/-- The body's stored value is the product of the quantised block with the resident operand, plus the bias row. -/
theorem pay_eq (x0 : Vec Ideal S512x1024 .f32) (x1 : Vec Ideal S1024x1024 .bf16) (x2 : Vec Ideal S1x1024 .f32) :
    k0_pay1 (F := Ideal) x0 x1 x2
      = addf (matmul (φ₁ := .bf16) (φ₂ := .bf16) dot_S512x1024_S1024x1024_S512x1024_1_0_0_1_n_n none
            (truncf .bf16 (dqBlock (shapeCast S512x1024 x0 shapeCasts_S512x1024_S512x1024)) bitsLt_bf16_f32)
            (shapeCast S1024x1024 x1 shapeCasts_S1024x1024_S1024x1024) (constant S512x1024 .f32 0x00000000#32))
          (broadcastTo S512x1024 (shapeCast S1x1024 x2 shapeCasts_S1x1024_S1x1024) broadcasts_S1x1024_S512x1024) := rfl

/-- Entry (p, o) of what the body stores, from its three loaded blocks. -/
theorem pay_apply (x0 : Vec Ideal S512x1024 .f32) (x1 : Vec Ideal S1024x1024 .bf16) (x2 : Vec Ideal S1x1024 .f32)
    (p : Fin 512) (o : Fin 1024) :
    k0_pay1 (F := Ideal) x0 x1 x2 (ix2 p o)
      = (∑ k : Fin 1024, fq (fun k' => x0 (ix2 p k')) k * x1 (ix2 k o)) + x2 (ix2 (0 : Fin 1) o) := by
  rw [pay_eq, shapeCast_self, shapeCast_self, shapeCast_self]
  have e1 := product_apply (truncf .bf16 (dqBlock x0) bitsLt_bf16_f32) x1 p o
  have e2 := broadcastTo_1b_ab_apply x2 broadcasts_S1x1024_S512x1024 p o
  refine (congrArg₂ (· + ·) e1 e2).trans ?_
  refine congrArg (· + x2 (ix2 (0 : Fin 1) o)) (Finset.sum_congr rfl fun k _ => ?_)
  exact congrArg (· * x1 (ix2 k o)) (dqBlock_apply x0 p k)

end Cert.KernelIdeal.Body

end
-- ==== Proof.Weights.lean ====
/-
  The weight table both programs build on the host, as one function of the packed words and the scale.

  Each 32-bit word of the packed array carries four two-bit codes; plane s ∈ {0, 2, 4, 6} of all 262144 words is
  (word >> s) & 3, the four planes are laid one after another (1048576 codes), each code becomes the real
  code − 1 ∈ {−1, 0, 1, 2}, the list is read as a [1024, 1024] table and every entry is multiplied by the one scale.
  Kernel and reference apply these same operations in the same order, so the proof never opens them: it only needs
  that both tables are this function of the same arguments.
-/
import Idealize.ShloMosaic.PureOps

noncomputable section

namespace Cert.Weights

open Idealize.ShloMosaic

abbrev S262144 : Shape := ⟨1, ![262144]⟩
abbrev S1 : Shape := ⟨1, ![1]⟩
abbrev S4 : Shape := ⟨1, ![4]⟩
abbrev S1x262144 : Shape := ⟨2, ![1, 262144]⟩
abbrev S4x1 : Shape := ⟨2, ![4, 1]⟩
abbrev S4x262144 : Shape := ⟨2, ![4, 262144]⟩
abbrev S_ : Shape := ⟨0, ![]⟩
abbrev S1048576 : Shape := ⟨1, ![1048576]⟩
abbrev S1024x1024 : Shape := ⟨2, ![1024, 1024]⟩
abbrev S1x1 : Shape := ⟨2, ![1, 1]⟩

theorem bcast_S262144_S1x262144_1 : S262144.BroadcastsInDim S1x262144 (![1] : Fin 1 → Fin S1x262144.rank) := by decide
theorem bcast_S4_S4x1_0 : S4.BroadcastsInDim S4x1 (![0] : Fin 1 → Fin S4x1.rank) := by decide
theorem bcast_S1x262144_S4x262144_0_1 : S1x262144.BroadcastsInDim S4x262144 (![0, 1] : Fin 2 → Fin S4x262144.rank) := by decide
theorem bcast_S4x1_S4x262144_0_1 : S4x1.BroadcastsInDim S4x262144 (![0, 1] : Fin 2 → Fin S4x262144.rank) := by decide
theorem bcast_S_S4x262144 : S_.BroadcastsInDim S4x262144 (![] : Fin 0 → Fin S4x262144.rank) := by decide
theorem shapeCasts_S4x262144_S1048576 : S4x262144.ShapeCasts S1048576 := by decide
theorem bcast_S_S1048576 : S_.BroadcastsInDim S1048576 (![] : Fin 0 → Fin S1048576.rank) := by decide
theorem shapeCasts_S1048576_S1024x1024 : S1048576.ShapeCasts S1024x1024 := by decide
theorem bcast_S1_S1x1_1 : S1.BroadcastsInDim S1x1 (![1] : Fin 1 → Fin S1x1.rank) := by decide
theorem bcast_S1x1_S1024x1024_0_1 : S1x1.BroadcastsInDim S1024x1024 (![0, 1] : Fin 2 → Fin S1024x1024.rank) := by decide

variable {F : FTy → Type} [FloatOps F]

/-- The table of dequantised weights from the four shift amounts `tab`, the packed words `pw` and the scale `ws`. -/
def weights (tab : (⟨S4, .i32⟩ : BufTy).Contents (Elt F)) (pw : (⟨S262144, .i32⟩ : BufTy).Contents (Elt F))
    (ws : (⟨S1, .f32⟩ : BufTy).Contents (Elt F)) : (⟨S1024x1024, .f32⟩ : BufTy).Contents (Elt F) :=
  mulf
    (shapeCast S1024x1024
      (subf
        (sitofp .f32
          (shapeCast S1048576
            (andi
              (Host.shrsi
                (broadcastInDim S4x262144 ![0, 1] bcast_S1x262144_S4x262144_0_1
                  (broadcastInDim S1x262144 ![1] bcast_S262144_S1x262144_1 pw))
                (broadcastInDim S4x262144 ![0, 1] bcast_S4x1_S4x262144_0_1
                  (broadcastInDim S4x1 ![0] bcast_S4_S4x1_0 tab)))
              (broadcastInDim S4x262144 ![] bcast_S_S4x262144 (constantI S_ 32 3#32)))
            shapeCasts_S4x262144_S1048576))
        (broadcastInDim S1048576 ![] bcast_S_S1048576 (constant S_ .f32 0x3F800000#32)))
      shapeCasts_S1048576_S1024x1024)
    (broadcastInDim S1024x1024 ![0, 1] bcast_S1x1_S1024x1024_0_1
      (broadcastInDim S1x1 ![1] bcast_S1_S1x1_1 ws))

/-- The four shift amounts 0, 2, 4, 6. -/
abbrev shifts : Fin 4 → BitVec 32 := fun
  | 0 => 0#32 | 1 => 2#32 | 2 => 4#32 | 3 => 6#32
  | _ => 0#32

end Cert.Weights

end
-- ==== Proof.KerValue.lean ====
/-
  The kernel's result as one function of the arguments.

  The [32768, 1024] activation array (the [8, 4096, 1024] argument with its two leading axes merged) is processed in 64
  blocks of 512 rows; the weight operand (the transposed weight table) and the bias row are the same whole arrays at
  every point.  Point t writes rows 512·t … 512·t + 511 of the output, and what it writes there is, entry by entry,
  Σ_k fq(row) k · Wᵀ(k, o) + bias(o) of the SAME rows of the input: a restriction of one whole-array function.  The 64
  blocks tile the output, so the output array is that function; the final reshape splits the row index back into
  (batch, position), and the function is `Quant.out` of the arguments and the weight table.
-/
import proofs.«430797_j53987738911497_1_alg».proof.Proof.Gen.KernelIdeal.Frame
import proofs.«430797_j53987738911497_1_alg».proof.Proof.KerBody
import proofs.«430797_j53987738911497_1_alg».proof.Proof.Weights
import Idealize.ShloMosaic.Lib.Pipeline.Value
import Idealize.ShloMosaic.Lib.StableHlo.Run
import Idealize.ShloMosaic.Lib.ValueLayout

set_option maxRecDepth 16384

noncomputable section

namespace Cert.KernelIdeal.KerValue

open Cert.KernelIdeal Cert.KernelIdeal.Gen Idealize.ShloMosaic Idealize.ShloMosaic.TcCoe Idealize.SL.Sem
open Idealize.ShloMosaic.ValueIdx Cert.Quant
open Idealize.ShloMosaic.Pipeline (Dat)

-- the exact quotient, a literal's value and the rounding are used as opaque functions throughout: nothing below evaluates one
attribute [local irreducible] Ideal.div Ideal.ofBits Ideal.liftRound

variable (m : (ℓ : Loc nD τ sig) → Buf (Elt Ideal) ℓ) (ρ : Dev nD → PrngReg)

/-! ## The arrays the region finds -/

/-- The merged-rows activations, the transposed weight operand and the bias row, as the region finds them. -/
abbrev acts (c : Dev nD) : FVec Ideal S32768x1024 .f32 := V m c main_call0_v0
abbrev wts (c : Dev nD) : FVec Ideal S1024x1024 .bf16 := V m c main_call0_v17
abbrev brow (c : Dev nD) : FVec Ideal S1x1024 .f32 := V m c main_call0_v18

/-- The output array as one function of those three: row r, feature o. -/
def blockOut (X : FVec Ideal S32768x1024 .f32) (W : FVec Ideal S1024x1024 .bf16) (B : FVec Ideal S1x1024 .f32) :
    FVec Ideal S32768x1024 .f32 :=
  fun i => (∑ k : Fin 1024, fq (fun k' => X (ix2 (i 0) k')) k * W (ix2 k (i 1))) + B (ix2 (0 : Fin 1) (i 1))

/-- One entry of what a point stores is that function at an array index i, once the three loaded blocks agree with
    the arrays along row `i 0` and column `i 1`. -/
theorem point_eq (X : FVec Ideal S32768x1024 .f32) (W : FVec Ideal S1024x1024 .bf16) (B : FVec Ideal S1x1024 .f32)
    (x0 : Vec Ideal S512x1024 .f32) (x1 : Vec Ideal S1024x1024 .bf16) (x2 : Vec Ideal S1x1024 .f32)
    (i : S32768x1024.Idx) (p : Fin 512) (o : Fin 1024)
    (h0 : ∀ k' : Fin 1024, x0 (ix2 p k') = X (ix2 (i 0) k')) (h1 : ∀ k : Fin 1024, x1 (ix2 k o) = W (ix2 k (i 1)))
    (h2 : x2 (ix2 (0 : Fin 1) o) = B (ix2 (0 : Fin 1) (i 1))) :
    k0_pay1 (F := Ideal) x0 x1 x2 (ix2 p o) = blockOut X W B i :=
  (Body.pay_apply x0 x1 x2 p o).trans
    (congrArg₂ (· + ·)
      (Finset.sum_congr rfl fun k _ => congrArg₂ (· * ·) (congrArg (fun r => fq r k) (funext h0)) (h1 k)) h2)

/-! ## From blocks to the array -/

theorem hz : (![0, 0] : Fin 2 → Nat) = fun _ => 0 := funext fun a => by fin_cases a <;> rfl

/-- The printed index maps over the 64 points: the activations' and the output's blocks move together down the rows,
    the weight operand and the bias stay at block (0, 0). -/
theorem idx_facts : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 63 :=
  (by decide +kernel : ∀ t : Fin grid0.N, _)

/-- Every block of 512 rows is some point's. -/
theorem idx_onto : ∀ q0 : Fin 64, ∃ t : Fin cfg0.N, win0_3.index t = ![q0.val, 0] :=
  (by decide +kernel : ∀ q0 : Fin 64, ∃ t : Fin grid0.N, win0_3.index t = ![q0.val, 0])

/-- What point t writes back is block t of `blockOut` of the arrays the region found. -/
theorem flushed_eq (c : Dev nD) (t : Fin cfg0.N) :
    (dats m 0 c).flushed 3 t = ((cfg0.win 3).blk t).view.read (Elt Ideal) (blockOut (acts m c) (wts m c) (brow m c)) := by
  show (cfg0.win 3).cut (grid0.coords t) ((dats m 0 c).after 3 t) = _
  rw [after0_3]
  unfold out0_3
  rw [View.canon_unit_zero hz]
  simp only [View.ld_unit_zero (S := S512x1024) hz, View.ld_unit_zero (S := S1024x1024) hz, View.ld_unit_zero (S := S1x1024) hz]
  obtain ⟨e0, e1, e2, e3, e4, e5, e6, e7⟩ := idx_facts t
  funext j
  obtain ⟨p, o, rfl⟩ : ∃ (p : Fin 512) (o : Fin 1024), j = ix2 p o := ⟨j 0, j 1, eq_ix2 j⟩
  show k0_pay1 (F := Ideal) (iblk m c 0 t) (iblk m c 1 t) (iblk m c 2 t) (ix2 p o)
    = blockOut (acts m c) (wts m c) (brow m c) (((cfg0.win 3).blk t).view.emb (ix2 p o))
  refine point_eq (acts m c) (wts m c) (brow m c) (iblk m c 0 t) (iblk m c 1 t) (iblk m c 2 t)
    (((cfg0.win 3).blk t).view.emb (ix2 p o)) p o ?_ ?_ ?_
  · intro k'
    show V m c main_call0_v0 (((cfg0.win 0).blk t).view.emb (ix2 p k')) = V m c main_call0_v0 (ix2 ((((cfg0.win 3).blk t).view.emb (ix2 p o)) 0) k')
    refine congrArg (V m c main_call0_v0) (funext fun a => Fin.ext ?_)
    match a with
    | ⟨0, _⟩ => show win0_0.index t (0 : Fin 2) * 512 + 1 * p.val = win0_3.index t (0 : Fin 2) * 512 + 1 * p.val; omega
    | ⟨1, _⟩ => show win0_0.index t (1 : Fin 2) * 1024 + 1 * k'.val = k'.val; omega
  · intro k
    show V m c main_call0_v17 (((cfg0.win 1).blk t).view.emb (ix2 k o)) = V m c main_call0_v17 (ix2 k ((((cfg0.win 3).blk t).view.emb (ix2 p o)) 1))
    refine congrArg (V m c main_call0_v17) (funext fun a => Fin.ext ?_)
    match a with
    | ⟨0, _⟩ => show win0_1.index t (0 : Fin 2) * 1024 + 1 * k.val = k.val; omega
    | ⟨1, _⟩ => show win0_1.index t (1 : Fin 2) * 1024 + 1 * o.val = win0_3.index t (1 : Fin 2) * 1024 + 1 * o.val; omega
  · show V m c main_call0_v18 (((cfg0.win 2).blk t).view.emb (ix2 (0 : Fin 1) o)) = V m c main_call0_v18 (ix2 (0 : Fin 1) ((((cfg0.win 3).blk t).view.emb (ix2 p o)) 1))
    refine congrArg (V m c main_call0_v18) (funext fun a => Fin.ext ?_)
    match a with
    | ⟨0, _⟩ => show win0_2.index t (0 : Fin 2) * 1 + 1 * 0 = 0; omega
    | ⟨1, _⟩ => show win0_2.index t (1 : Fin 2) * 1024 + 1 * o.val = win0_3.index t (1 : Fin 2) * 1024 + 1 * o.val; omega

/-- An index of the output array is in point t's block iff each coordinate is in the block's range. -/
theorem mem_blk (t : Fin cfg0.N) (i : S32768x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_call0_v19).slice (win0_3.rect t)).set ↔ _
  rw [View.set_slice_whole, Rect.mem_set_unit]
  exact Iff.rfl

/-- Row r of the output lies in the block of point r / 512. -/
theorem cover (i : S32768x1024.Idx) : ∃ t : Fin cfg0.N, (cfg0.win 3).flush t = true ∧ i ∈ ((cfg0.win 3).blk t).view.set := by
  have hi0 : (i 0).val < 32768 := (i 0).isLt
  have hi1 : (i 1).val < 1024 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The output array after the run. -/
theorem final (c : Dev nD) : (dats m 0 c).arrAt 3 cfg0.N = blockOut (acts m c) (wts m c) (brow m c) :=
  (dats m 0 c).arrAt_eq_of_cover 3 (blockOut (acts m c) (wts m c) (brow m c)) (fun t _ => flushed_eq m c t) cover

end Cert.KernelIdeal.KerValue

end
-- ==== Proof.KerResult.lean ====
/-
  The kernel program's result, read through the host lines around the region.

  Before the region the host merges the activations' two leading axes (row r = 4096·b + s), builds the weight table,
  transposes it (entry (k, o) of the operand is entry (o, k) of the table) and makes the bias a one-row array; after the
  region it splits the output's row index back into (b, s).  Read at (b, s, o) the result is therefore
  Σ_k fq(x b s) k · table(o, k) + bias(o): `Quant.out`.
-/
import proofs.«430797_j53987738911497_1_alg».proof.Proof.KerValue

set_option maxRecDepth 16384

noncomputable section

namespace Cert.KernelIdeal.KerResult

open Cert.KernelIdeal Cert.KernelIdeal.Gen Idealize.ShloMosaic Idealize.ShloMosaic.TcCoe Idealize.SL.Sem
open Idealize.ShloMosaic.ValueIdx Cert.Quant Cert.KernelIdeal.KerValue
open Idealize.ShloMosaic.Pipeline (Dat)

-- the exact quotient, a literal's value and the rounding are used as opaque functions throughout: nothing below evaluates one
attribute [local irreducible] Ideal.div Ideal.ofBits Ideal.liftRound

variable (m : (ℓ : Loc nD τ sig) → Buf (Elt Ideal) ℓ) (ρ : Dev nD → PrngReg)

/-! ## The host lines before the region -/

/-- The activations the region finds: the argument with its leading axes merged. -/
theorem acts_eq (c : Dev nD) :
    acts m c = shapeCast S32768x1024 (m ((c : Thread nD τ).loc main_arg0)) shapeCasts_S8x4096x1024_S32768x1024 := by
  show StableHlo.after hostOps0 (fun b => m (c, b)) (Proc.devRef .tc main_call0_v0) = _
  after_results
  rfl

/-- The bias the region finds: the argument as one row. -/
theorem brow_eq (c : Dev nD) :
    brow m c = shapeCast S1x1024 (m ((c : Thread nD τ).loc main_arg3)) shapeCasts_S1024_S1x1024 := by
  show StableHlo.after hostOps0 (fun b => m (c, b)) (Proc.devRef .tc main_call0_v18) = _
  after_results
  rfl

attribute [local irreducible] Host.shrsi in
/-- The weight operand the region finds: the weight table, transposed (and narrowed, which changes nothing here). -/
theorem wts_eq (c : Dev nD) :
    wts m c = truncf .bf16 (transpose S1024x1024 [1, 0]
        (Cert.Weights.weights (F := Ideal) (fun i => lit0 (S4.rowMajor i)) (m ((c : Thread nD τ).loc main_arg1))
          (m ((c : Thread nD τ).loc main_arg2)))
        transposes_S1024x1024_S1024x1024_1_0) bitsLt_bf16_f32 := by
  show StableHlo.after hostOps0 (fun b => m (c, b)) (Proc.devRef .tc main_call0_v17) = _
  after_results
  rfl

/-! ## The host line after the region -/

/-- The result buffer: the output array with its row index split. -/
theorem tail_eq (c : Dev nD) :
    Pipeline.afterTail₀ cfgs (dats m) 0 (V0 m) [hostOps1] c main_v0
      = shapeCast S8x4096x1024 ((dats m 0 c).arrAt 3 cfg0.N) shapeCasts_S32768x1024_S8x4096x1024 := by
  unfold Pipeline.afterTail₀
  show StableHlo.after hostOps1 _ (Proc.devRef .tc main_v0) = _
  after_results
  rw [Pipeline.withArrays_arr spec0 launch0.win.arr_inj c _ _ 3]
  rfl

/-! ## The layout steps at an entry -/

/-- Splitting the row index: entry (b, s, o) of the split array is entry (4096·b + s, o). -/
theorem split_apply {α : Type} (v : S32768x1024.Idx → α) (h : S32768x1024.ShapeCasts S8x4096x1024)
    (b : Fin 8) (s : Fin 4096) (o : Fin 1024) (r : Fin 32768) (hr : r.val = b.val * 4096 + s.val) :
    shapeCast S8x4096x1024 v h (ix3 b s o) = v (ix2 r o) :=
  shapeCast_apply v h _ _ (by
    rw [Shape.rowMajor_val_two, Shape.rowMajor_val_three]
    show r.val * 1024 + o.val = (b.val * 4096 + s.val) * 1024 + o.val
    rw [hr])

/-- Merging the leading axes: entry (4096·b + s, k) of the merged array is entry (b, s, k). -/
theorem merge_apply {α : Type} (v : S8x4096x1024.Idx → α) (h : S8x4096x1024.ShapeCasts S32768x1024)
    (b : Fin 8) (s : Fin 4096) (k : Fin 1024) (r : Fin 32768) (hr : r.val = b.val * 4096 + s.val) :
    shapeCast S32768x1024 v h (ix2 r k) = v (ix3 b s k) :=
  shapeCast_apply v h _ _ (by
    rw [Shape.rowMajor_val_two, Shape.rowMajor_val_three]
    show (b.val * 4096 + s.val) * 1024 + k.val = r.val * 1024 + k.val
    rw [hr])

/-! ## The result -/

/-- The table of shift amounts is the one the weight chain is stated over. -/
theorem shifts_eq (x : Fin 4) : lit0 x = Cert.Weights.shifts x := by
  fin_cases x <;> rfl

/-- The kernel program's result buffer holds `Quant.out` of the activations, the weight table and the bias. -/
theorem result_eq (c : Dev nD) :
    Pipeline.afterTail₀ cfgs (dats m) 0 (V0 m) [hostOps1] c main_v0
      = out (m ((c : Thread nD τ).loc main_arg0))
          (Cert.Weights.weights (F := Ideal) (fun i => Cert.Weights.shifts (Cert.Weights.S4.rowMajor i))
            (m ((c : Thread nD τ).loc main_arg1)) (m ((c : Thread nD τ).loc main_arg2)))
          (m ((c : Thread nD τ).loc main_arg3)) := by
  have hw : Cert.Weights.weights (F := Ideal) (fun i => lit0 (S4.rowMajor i)) (m ((c : Thread nD τ).loc main_arg1))
        (m ((c : Thread nD τ).loc main_arg2))
      = Cert.Weights.weights (F := Ideal) (fun i => Cert.Weights.shifts (Cert.Weights.S4.rowMajor i))
        (m ((c : Thread nD τ).loc main_arg1)) (m ((c : Thread nD τ).loc main_arg2)) :=
    congrArg (fun t => Cert.Weights.weights (F := Ideal) t (m ((c : Thread nD τ).loc main_arg1)) (m ((c : Thread nD τ).loc main_arg2)))
      (funext fun i => shifts_eq _)
  rw [tail_eq, KerValue.final, ← hw]
  funext j
  obtain ⟨b, s, o, rfl⟩ : ∃ (b : Fin 8) (s : Fin 4096) (o : Fin 1024), j = ix3 b s o := ⟨j 0, j 1, j 2, eq_ix3 j⟩
  have hb : b.val < 8 := b.isLt
  have hs : s.val < 4096 := s.isLt
  refine (split_apply _ shapeCasts_S32768x1024_S8x4096x1024 b s o ⟨b.val * 4096 + s.val, by omega⟩ rfl).trans ?_
  rw [out_ix3]
  show (∑ k : Fin 1024, fq (fun k' => acts m c (ix2 ⟨b.val * 4096 + s.val, by omega⟩ k')) k * wts m c (ix2 k o))
      + brow m c (ix2 (0 : Fin 1) o) = _
  have h0 : (fun k' : Fin 1024 => acts m c (ix2 (⟨b.val * 4096 + s.val, by omega⟩ : Fin 32768) k'))
      = fun k' => m ((c : Thread nD τ).loc main_arg0) (ix3 b s k') :=
    funext fun k' => by
      rw [acts_eq]
      exact merge_apply _ shapeCasts_S8x4096x1024_S32768x1024 b s k' ⟨b.val * 4096 + s.val, by omega⟩ rfl
  have h1 : ∀ k : Fin 1024, wts m c (ix2 k o)
      = Cert.Weights.weights (F := Ideal) (fun i => lit0 (S4.rowMajor i)) (m ((c : Thread nD τ).loc main_arg1))
          (m ((c : Thread nD τ).loc main_arg2)) (ix2 o k) := fun k => by
    rw [wts_eq]
    exact (truncf_apply _ bitsLt_bf16_f32 (ix2 k o)).trans
      (transpose_ix2_apply (Cert.Weights.weights (F := Ideal) (fun i => lit0 (S4.rowMajor i)) (m ((c : Thread nD τ).loc main_arg1))
        (m ((c : Thread nD τ).loc main_arg2))) transposes_S1024x1024_S1024x1024_1_0 k o)
  have h2 : brow m c (ix2 (0 : Fin 1) o) = m ((c : Thread nD τ).loc main_arg3) (ix1 o) := by
    rw [brow_eq]
    exact shapeCast_a_1a_apply _ shapeCasts_S1024_S1x1024 (0 : Fin 1) o
  rw [h0, h2]
  exact congrArg (· + m ((c : Thread nD τ).loc main_arg3) (ix1 o))
    (Finset.sum_congr rfl fun k _ => congrArg (fq (fun k' => m ((c : Thread nD τ).loc main_arg0) (ix3 b s k')) k * ·) (h1 k))

/-- The kernel program runs, and ends with its result at `Quant.out` of the arguments and the arguments unchanged. -/
theorem run : θ_run defs (onTc (τ := τ) (main (F := Ideal))) ⟨m, fun _ => 0, ρ⟩ (fun r => ∀ c : Dev nD,
      r.2.mem ((c.tc : Thread nD τ).loc main_v0)
        = out (m ((c : Thread nD τ).loc main_arg0))
            (Cert.Weights.weights (F := Ideal) (fun i => Cert.Weights.shifts (Cert.Weights.S4.rowMajor i))
              (m ((c : Thread nD τ).loc main_arg1)) (m ((c : Thread nD τ).loc main_arg2)))
            (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v0 (Pipeline.mem_restRefs_of main_v0 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.KerResult

end
-- ==== Proof.RefRun.lean ====
/-
  The reference program's run, read back: its entry point is a straight line of forty-five host operations (the two
  outlined helpers, the rounding and the clip, written out where they are called), so every execution ends with each
  buffer holding the composition of those operations applied to the argument arrays, and the arguments unchanged.
-/
import proofs.«430797_j53987738911497_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry point's operations in order: the weight table unpacked from its two-bit codes and scaled (18), the
    per-row scale 127 / max(max |x|, ε) (10), its broadcast and the product (2), the rounding (1, outlined), the clip
    (2 constants and 6, outlined), the quotient (2), the contraction with the weight table and the bias added (4). -/
abbrev ops : List (HloOp τ sig (Elt F)) :=
  [ nullary main_c (fun i => lit0 (S4.rowMajor i)),
    unary main_arg1 main_v0 (broadcastInDim S1x262144 ![1] bcast_S262144_S1x262144_1 : (⟨S262144, .i32⟩ : BufTy).Contents (Elt F) → (⟨S1x262144, .i32⟩ : BufTy).Contents (Elt F)),
    unary main_c main_v1 (broadcastInDim S4x1 ![0] bcast_S4_S4x1_0 : (⟨S4, .i32⟩ : BufTy).Contents (Elt F) → (⟨S4x1, .i32⟩ : BufTy).Contents (Elt F)),
    unary main_v0 main_v2 (broadcastInDim S4x262144 ![0, 1] bcast_S1x262144_S4x262144_0_1 : (⟨S1x262144, .i32⟩ : BufTy).Contents (Elt F) → (⟨S4x262144, .i32⟩ : BufTy).Contents (Elt F)),
    unary main_v1 main_v3 (broadcastInDim S4x262144 ![0, 1] bcast_S4x1_S4x262144_0_1 : (⟨S4x1, .i32⟩ : BufTy).Contents (Elt F) → (⟨S4x262144, .i32⟩ : BufTy).Contents (Elt F)),
    binary main_v2 main_v3 main_v4 (Host.shrsi : (⟨S4x262144, .i32⟩ : BufTy).Contents (Elt F) → (⟨S4x262144, .i32⟩ : BufTy).Contents (Elt F) → (⟨S4x262144, .i32⟩ : BufTy).Contents (Elt F)),
    nullary main_c_0 (constantI S_ 32 3#32),
    unary main_c_0 main_v5 (broadcastInDim S4x262144 ![] bcast_S_S4x262144 : (⟨S_, .i32⟩ : BufTy).Contents (Elt F) → (⟨S4x262144, .i32⟩ : BufTy).Contents (Elt F)),
    binary main_v4 main_v5 main_v6 (andi : (⟨S4x262144, .i32⟩ : BufTy).Contents (Elt F) → (⟨S4x262144, .i32⟩ : BufTy).Contents (Elt F) → (⟨S4x262144, .i32⟩ : BufTy).Contents (Elt F)),
    reshape main_v6 main_v7 rfl shapeCasts_S4x262144_S1048576,
    unary main_v7 main_v8 (sitofp .f32 : (⟨S1048576, .i32⟩ : BufTy).Contents (Elt F) → (⟨S1048576, .f32⟩ : BufTy).Contents (Elt F)),
    nullary main_cst (constant S_ .f32 0x3F800000#32),
    unary main_cst main_v9 (broadcastInDim S1048576 ![] bcast_S_S1048576 : (⟨S_, .f32⟩ : BufTy).Contents (Elt F) → (⟨S1048576, .f32⟩ : BufTy).Contents (Elt F)),
    binary main_v8 main_v9 main_v10 (subf : (⟨S1048576, .f32⟩ : BufTy).Contents (Elt F) → (⟨S1048576, .f32⟩ : BufTy).Contents (Elt F) → (⟨S1048576, .f32⟩ : BufTy).Contents (Elt F)),
    reshape main_v10 main_v11 rfl shapeCasts_S1048576_S1024x1024,
    unary main_arg2 main_v12 (broadcastInDim S1x1 ![1] bcast_S1_S1x1_1 : (⟨S1, .f32⟩ : BufTy).Contents (Elt F) → (⟨S1x1, .f32⟩ : BufTy).Contents (Elt F)),
    unary main_v12 main_v13 (broadcastInDim S1024x1024 ![0, 1] bcast_S1x1_S1024x1024_0_1 : (⟨S1x1, .f32⟩ : BufTy).Contents (Elt F) → (⟨S1024x1024, .f32⟩ : BufTy).Contents (Elt F)),
    binary main_v11 main_v13 main_v14 (mulf : (⟨S1024x1024, .f32⟩ : BufTy).Contents (Elt F) → (⟨S1024x1024, .f32⟩ : BufTy).Contents (Elt F) → (⟨S1024x1024, .f32⟩ : BufTy).Contents (Elt F)),
    unary main_arg0 main_v15 (Host.absf : (⟨S8x4096x1024, .f32⟩ : BufTy).Contents (Elt F) → (⟨S8x4096x1024, .f32⟩ : BufTy).Contents (Elt F)),
    nullary main_cst_1 (constant S_ .f32 0xFF800000#32),
    binary main_v15 main_cst_1 main_v16 ((fun x v => Host.reduce FloatOps.maximumf x v reducesTo_S8x4096x1024_S8x4096_d2 h_S_) : (⟨S8x4096x1024, .f32⟩ : BufTy).Contents (Elt F) → (⟨S_, .f32⟩ : BufTy).Contents (Elt F) → (⟨S8x4096, .f32⟩ : BufTy).Contents (Elt F)),
    unary main_v16 main_v17 (broadcastInDim S8x4096x1 ![0, 1] bcast_S8x4096_S8x4096x1_0_1 : (⟨S8x4096, .f32⟩ : BufTy).Contents (Elt F) → (⟨S8x4096x1, .f32⟩ : BufTy).Contents (Elt F)),
    nullary main_cst_2 (constant S_ .f32 0x3727C5AC#32),
    unary main_cst_2 main_v18 (broadcastInDim S8x4096x1 ![] bcast_S_S8x4096x1 : (⟨S_, .f32⟩ : BufTy).Contents (Elt F) → (⟨S8x4096x1, .f32⟩ : BufTy).Contents (Elt F)),
    binary main_v17 main_v18 main_v19 (maximumf : (⟨S8x4096x1, .f32⟩ : BufTy).Contents (Elt F) → (⟨S8x4096x1, .f32⟩ : BufTy).Contents (Elt F) → (⟨S8x4096x1, .f32⟩ : BufTy).Contents (Elt F)),
    nullary main_cst_3 (constant S_ .f32 0x42FE0000#32),
    unary main_cst_3 main_v20 (broadcastInDim S8x4096x1 ![] bcast_S_S8x4096x1 : (⟨S_, .f32⟩ : BufTy).Contents (Elt F) → (⟨S8x4096x1, .f32⟩ : BufTy).Contents (Elt F)),
    binary main_v20 main_v19 main_v21 (Host.divf : (⟨S8x4096x1, .f32⟩ : BufTy).Contents (Elt F) → (⟨S8x4096x1, .f32⟩ : BufTy).Contents (Elt F) → (⟨S8x4096x1, .f32⟩ : BufTy).Contents (Elt F)),
    unary main_v21 main_v22 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_arg0 main_v22 main_v23 (mulf : (⟨S8x4096x1024, .f32⟩ : BufTy).Contents (Elt F) → (⟨S8x4096x1024, .f32⟩ : BufTy).Contents (Elt F) → (⟨S8x4096x1024, .f32⟩ : BufTy).Contents (Elt F)),
    unary main_v23 main_v24 (Host.roundeven : (⟨S8x4096x1024, .f32⟩ : BufTy).Contents (Elt F) → (⟨S8x4096x1024, .f32⟩ : BufTy).Contents (Elt F)),
    nullary main_cst_4 (constant S_ .f32 0xC3000000#32),
    nullary main_cst_5 (constant S_ .f32 0x42FE0000#32),
    unary main_cst_4 main_call1_v0 (id : (⟨S_, .f32⟩ : BufTy).Contents (Elt F) → (⟨S_, .f32⟩ : BufTy).Contents (Elt F)),
    unary main_call1_v0 main_call1_v1 (broadcastInDim S8x4096x1024 ![] bcast_S_S8x4096x1024 : (⟨S_, .f32⟩ : BufTy).Contents (Elt F) → (⟨S8x4096x1024, .f32⟩ : BufTy).Contents (Elt F)),
    binary main_call1_v1 main_v24 main_call1_v2 (maximumf : (⟨S8x4096x1024, .f32⟩ : BufTy).Contents (Elt F) → (⟨S8x4096x1024, .f32⟩ : BufTy).Contents (Elt F) → (⟨S8x4096x1024, .f32⟩ : BufTy).Contents (Elt F)),
    unary main_cst_5 main_call1_v3 (id : (⟨S_, .f32⟩ : BufTy).Contents (Elt F) → (⟨S_, .f32⟩ : BufTy).Contents (Elt F)),
    unary main_call1_v3 main_call1_v4 (broadcastInDim S8x4096x1024 ![] bcast_S_S8x4096x1024 : (⟨S_, .f32⟩ : BufTy).Contents (Elt F) → (⟨S8x4096x1024, .f32⟩ : BufTy).Contents (Elt F)),
    binary main_call1_v4 main_call1_v2 main_v25 (minimumf : (⟨S8x4096x1024, .f32⟩ : BufTy).Contents (Elt F) → (⟨S8x4096x1024, .f32⟩ : BufTy).Contents (Elt F) → (⟨S8x4096x1024, .f32⟩ : BufTy).Contents (Elt F)),
    unary main_v21 main_v26 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_v25 main_v26 main_v27 (Host.divf : (⟨S8x4096x1024, .f32⟩ : BufTy).Contents (Elt F) → (⟨S8x4096x1024, .f32⟩ : BufTy).Contents (Elt F) → (⟨S8x4096x1024, .f32⟩ : BufTy).Contents (Elt F)),
    binary main_v27 main_v14 main_v28 ((fun l r => Host.dotGeneral dot_S8x4096x1024_S1024x1024_S8x4096x1024_2_1_01_0_n_n none l r) : (⟨S8x4096x1024, .f32⟩ : BufTy).Contents (Elt F) → (⟨S1024x1024, .f32⟩ : BufTy).Contents (Elt F) → (⟨S8x4096x1024, .f32⟩ : BufTy).Contents (Elt F)),
    unary main_arg3 main_v29 (broadcastInDim S1x1x1024 ![2] bcast_S1024_S1x1x1024_2 : (⟨S1024, .f32⟩ : BufTy).Contents (Elt F) → (⟨S1x1x1024, .f32⟩ : BufTy).Contents (Elt F)),
    unary main_v29 main_v30 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v28 main_v30 main_v31 (addf : (⟨S8x4096x1024, .f32⟩ : BufTy).Contents (Elt F) → (⟨S8x4096x1024, .f32⟩ : BufTy).Contents (Elt F) → (⟨S8x4096x1024, .f32⟩ : BufTy).Contents (Elt F)) ]

set_option maxRecDepth 2048 in
/-- The entry point is that straight line: the two helpers' bodies unfolded where they are called, the sequencing
    re-associated. -/
theorem main_eq (c : Dev nD) : main (F := F) c = seq ops := by
  simp only [main, fn_round.body, fn_clip.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub ..,
    nullary_bufs_sub .., unary_bufs_sub .., binary_bufs_sub .., reshape_bufs_sub .., unary_bufs_sub .., nullary_bufs_sub ..,
    unary_bufs_sub .., binary_bufs_sub .., reshape_bufs_sub .., unary_bufs_sub .., unary_bufs_sub .., binary_bufs_sub ..,
    unary_bufs_sub .., nullary_bufs_sub .., binary_bufs_sub .., unary_bufs_sub .., nullary_bufs_sub .., unary_bufs_sub ..,
    binary_bufs_sub .., nullary_bufs_sub .., unary_bufs_sub .., binary_bufs_sub .., unary_bufs_sub .., binary_bufs_sub ..,
    unary_bufs_sub .., nullary_bufs_sub .., nullary_bufs_sub .., unary_bufs_sub .., unary_bufs_sub .., binary_bufs_sub ..,
    unary_bufs_sub .., unary_bufs_sub .., binary_bufs_sub .., unary_bufs_sub .., binary_bufs_sub .., binary_bufs_sub ..,
    unary_bufs_sub .., unary_bufs_sub .., binary_bufs_sub ..⟩

/-- Every weakly fair execution of the reference terminates, and every final state has each buffer at the
    operations' fold over the contents it was launched with. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  What the reference computes, read at one entry.  Its result is its forty-five operations composed; the stages are
  named here as the reference spells them (the column of row scales, the quantised array, the contraction with the
  weight table plus the bias), and each is read at an index: the row maximum is a fold of max over the row's 1024
  entries from −∞, the scale and the quantised entry are pointwise, the contraction at (b, s, o) is the sum over the 1024
  input features k of the quantised entry (b, s, k) times the weight (o, k).  So the result is `Quant.out` of the
  arguments and the weight table.
-/
import proofs.«430797_j53987738911497_1_alg».proof.Proof.Gen.ReferenceIdeal
import proofs.«430797_j53987738911497_1_alg».proof.Proof.Quant
import proofs.«430797_j53987738911497_1_alg».proof.Proof.Weights
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe
open Idealize.SL.Sem Idealize.ShloMosaic.ValueIdx Cert.Quant

-- the exact quotient, a literal's value and the rounding are used as opaque functions throughout: nothing below evaluates one
attribute [local irreducible] Ideal.div Ideal.ofBits Ideal.liftRound

/-! ## The stages, as the reference spells them -/

/-- The column of row scales 127 / max(row maximum, ε). -/
def scaleCol (x : FVec Ideal S8x4096x1024 .f32) : FVec Ideal S8x4096x1 .f32 :=
  Host.divf (broadcastInDim S8x4096x1 ![] bcast_S_S8x4096x1 (constant S_ .f32 0x42FE0000#32))
    (maximumf
      (broadcastInDim S8x4096x1 ![0, 1] bcast_S8x4096_S8x4096x1_0_1
        (Host.reduce FloatOps.maximumf (Host.absf x) (constant S_ .f32 0xFF800000#32) reducesTo_S8x4096x1024_S8x4096_d2 h_S_))
      (broadcastInDim S8x4096x1 ![] bcast_S_S8x4096x1 (constant S_ .f32 0x3727C5AC#32)))

/-- The quantised and de-quantised activations. -/
def dq (x : FVec Ideal S8x4096x1024 .f32) : FVec Ideal S8x4096x1024 .f32 :=
  Host.divf
    (minimumf (broadcastInDim S8x4096x1024 ![] bcast_S_S8x4096x1024 (constant S_ .f32 0x42FE0000#32))
      (maximumf (broadcastInDim S8x4096x1024 ![] bcast_S_S8x4096x1024 (constant S_ .f32 0xC3000000#32))
        (Host.roundeven (mulf x (broadcastInDim S8x4096x1024 ![0, 1, 2] bcast_S8x4096x1_S8x4096x1024_0_1_2 (scaleCol x))))))
    (broadcastInDim S8x4096x1024 ![0, 1, 2] bcast_S8x4096x1_S8x4096x1024_0_1_2 (scaleCol x))

/-- The reference's result: the contraction of the quantised activations with the weight table, plus the bias. -/
def result (x : FVec Ideal S8x4096x1024 .f32) (pw : IVec S262144 32) (ws : FVec Ideal S1 .f32) (bias : FVec Ideal S1024 .f32) :
    FVec Ideal S8x4096x1024 .f32 :=
  addf
    (Host.dotGeneral (φ₁ := .f32) (φ₂ := .f32) dot_S8x4096x1024_S1024x1024_S8x4096x1024_2_1_01_0_n_n none (dq x)
      (Cert.Weights.weights (F := Ideal) (fun i => lit0 (S4.rowMajor i)) pw ws))
    (broadcastInDim S8x4096x1024 ![0, 1, 2] bcast_S1x1x1024_S8x4096x1024_0_1_2
      (broadcastInDim S1x1x1024 ![2] bcast_S1024_S1x1x1024_2 bias))

/-! ## The host's pointwise operations at an entry (over variables, so each is a one-step unfolding) -/

theorem hostDivf_apply {s : Shape} (a b : FVec Ideal s .f32) (i : s.Idx) : Host.divf a b i = Ideal.div (a i) (b i) := rfl
theorem hostRoundeven_apply {s : Shape} (a : FVec Ideal s .f32) (i : s.Idx) :
    Host.roundeven a i = Ideal.liftRound Ideal.roundHalfEven (a i) := rfl

theorem scaleCol_def (x : FVec Ideal S8x4096x1024 .f32) : scaleCol x =
  Host.divf (broadcastInDim S8x4096x1 ![] bcast_S_S8x4096x1 (constant S_ .f32 0x42FE0000#32))
    (maximumf
      (broadcastInDim S8x4096x1 ![0, 1] bcast_S8x4096_S8x4096x1_0_1
        (Host.reduce FloatOps.maximumf (Host.absf x) (constant S_ .f32 0xFF800000#32) reducesTo_S8x4096x1024_S8x4096_d2 h_S_))
      (broadcastInDim S8x4096x1 ![] bcast_S_S8x4096x1 (constant S_ .f32 0x3727C5AC#32))) := rfl

theorem dq_def (x : FVec Ideal S8x4096x1024 .f32) : dq x =
  Host.divf
    (minimumf (broadcastInDim S8x4096x1024 ![] bcast_S_S8x4096x1024 (constant S_ .f32 0x42FE0000#32))
      (maximumf (broadcastInDim S8x4096x1024 ![] bcast_S_S8x4096x1024 (constant S_ .f32 0xC3000000#32))
        (Host.roundeven (mulf x (broadcastInDim S8x4096x1024 ![0, 1, 2] bcast_S8x4096x1_S8x4096x1024_0_1_2 (scaleCol x))))))
    (broadcastInDim S8x4096x1024 ![0, 1, 2] bcast_S8x4096x1_S8x4096x1024_0_1_2 (scaleCol x)) := rfl

theorem scale_def {n : ℕ} (r : Fin n → EReal) :
    scale r = Ideal.div (Ideal.ofBits .f32 0x42FE0000#32) (max (amax r) (Ideal.ofBits .f32 0x3727C5AC#32)) := rfl
theorem fq_def {n : ℕ} (r : Fin n → EReal) (k : Fin n) :
    fq r k = Ideal.div (min (Ideal.ofBits .f32 0x42FE0000#32) (max (Ideal.ofBits .f32 0xC3000000#32)
      (Ideal.liftRound Ideal.roundHalfEven (r k * scale r)))) (scale r) := rfl

/-! ## Layout steps at an entry -/

/-- A scalar constant broadcast to any shape reads the constant everywhere. -/
theorem splat_apply {t : Shape} (h : S_.BroadcastsInDim t (![] : Fin 0 → Fin t.rank)) (w : BitVec 32) (j : t.Idx) :
    broadcastInDim t ![] h (constant (F := Ideal) S_ .f32 w) j = Ideal.ofBits .f32 w :=
  broadcastInDim_apply ![] h (constant (F := Ideal) S_ .f32 w) j ix0 (fun a => a.elim0)

/-- The [8, 4096] row values with a unit axis appended read, at (b, s, ·), the value of row (b, s). -/
theorem keep_apply {α : Type} (v : S8x4096.Idx → α) (h : S8x4096.BroadcastsInDim S8x4096x1 (![0, 1] : Fin 2 → Fin S8x4096x1.rank))
    (b : Fin 8) (s : Fin 4096) (u : Fin 1) : broadcastInDim S8x4096x1 ![0, 1] h v (ix3 b s u) = v (ix2 b s) :=
  broadcastInDim_apply ![0, 1] h v (ix3 b s u) (ix2 b s) fun a => match a with
    | ⟨0, _⟩ => rfl
    | ⟨1, _⟩ => rfl

/-- A column broadcast along the features reads, at (b, s, k), the column's entry (b, s). -/
theorem lanes_apply {α : Type} (v : S8x4096x1.Idx → α)
    (h : S8x4096x1.BroadcastsInDim S8x4096x1024 (![0, 1, 2] : Fin 3 → Fin S8x4096x1024.rank))
    (b : Fin 8) (s : Fin 4096) (k : Fin 1024) :
    broadcastInDim S8x4096x1024 ![0, 1, 2] h v (ix3 b s k) = v (ix3 b s (0 : Fin 1)) :=
  broadcastInDim_apply ![0, 1, 2] h v (ix3 b s k) (ix3 b s (0 : Fin 1)) fun a => match a with
    | ⟨0, _⟩ => rfl
    | ⟨1, _⟩ => rfl
    | ⟨2, _⟩ => rfl

/-- The bias broadcast over batch and position reads, at (b, s, o), the bias at o. -/
theorem bias_apply {α : Type} (v : S1024.Idx → α) (h : S1024.BroadcastsInDim S1x1x1024 (![2] : Fin 1 → Fin S1x1x1024.rank))
    (h' : S1x1x1024.BroadcastsInDim S8x4096x1024 (![0, 1, 2] : Fin 3 → Fin S8x4096x1024.rank))
    (b : Fin 8) (s : Fin 4096) (o : Fin 1024) :
    broadcastInDim S8x4096x1024 ![0, 1, 2] h' (broadcastInDim S1x1x1024 ![2] h v) (ix3 b s o) = v (ix1 o) :=
  (broadcastInDim_apply ![0, 1, 2] h' (broadcastInDim S1x1x1024 ![2] h v) (ix3 b s o) (ix3 (0 : Fin 1) (0 : Fin 1) o) fun a => match a with
    | ⟨0, _⟩ => rfl
    | ⟨1, _⟩ => rfl
    | ⟨2, _⟩ => rfl).trans
  (broadcastInDim_apply ![2] h v (ix3 (0 : Fin 1) (0 : Fin 1) o) (ix1 o) fun a => match a with
    | ⟨0, _⟩ => rfl)

/-! ## The per-row quantisation -/

theorem reduces3 : S8x4096x1024.Reduces [2] S8x4096 := by decide

/-- The index over row (b, s) with feature k put back is (b, s, k). -/
theorem lift_eq (h : S8x4096x1024.Reduces [2] S8x4096) (b : Fin 8) (s : Fin 4096) (k : Fin (S8x4096x1024.size 2)) :
    h.lift (ix2 b s) k = ix3 b s k :=
  funext fun a => match a with
    | ⟨0, _⟩ => Fin.ext rfl
    | ⟨1, _⟩ => Fin.ext rfl
    | ⟨2, _⟩ => Fin.ext rfl

/-- A row's largest magnitude: the reduction of |x| along the features at (b, s) is the fold over the row. -/
theorem rowmax_apply (x : FVec Ideal S8x4096x1024 .f32) (h' : S8x4096x1024.ReducesTo [2] S8x4096) (hu : 0 < S_.numel)
    (b : Fin 8) (s : Fin 4096) :
    Host.reduce FloatOps.maximumf (Host.absf x) (constant (F := Ideal) S_ .f32 0xFF800000#32) h' hu (ix2 b s)
      = amax (fun k => x (ix3 b s k)) := by
  rw [Host.reduce_eq_fold_single FloatOps.maximumf (Host.absf x) (constant (F := Ideal) S_ .f32 0xFF800000#32) h' reduces3 hu (ix2 b s)]
  have e : (fun k : Fin (S8x4096x1024.size 2) => x (reduces3.lift (ix2 b s) k)) = fun k => x (ix3 b s k) :=
    funext fun k => congrArg x (lift_eq reduces3 b s k)
  exact (show _ = amax (n := S8x4096x1024.size 2) (fun k => x (reduces3.lift (ix2 b s) k)) from rfl).trans (congrArg amax e)

theorem scaleCol_apply (x : FVec Ideal S8x4096x1024 .f32) (b : Fin 8) (s : Fin 4096) :
    scaleCol x (ix3 b s (0 : Fin 1)) = scale (fun k => x (ix3 b s k)) := by
  have e0 := splat_apply bcast_S_S8x4096x1 0x42FE0000#32 (ix3 b s (0 : Fin 1))
  have e1 := (keep_apply (Host.reduce FloatOps.maximumf (Host.absf x) (constant (F := Ideal) S_ .f32 0xFF800000#32)
      reducesTo_S8x4096x1024_S8x4096_d2 h_S_) bcast_S8x4096_S8x4096x1_0_1 b s 0).trans
    (rowmax_apply x reducesTo_S8x4096x1024_S8x4096_d2 h_S_ b s)
  have e2 := splat_apply bcast_S_S8x4096x1 0x3727C5AC#32 (ix3 b s (0 : Fin 1))
  rw [scaleCol_def, hostDivf_apply, maximumf_apply, e0, e1, e2, scale_def]

theorem dq_apply (x : FVec Ideal S8x4096x1024 .f32) (b : Fin 8) (s : Fin 4096) (k : Fin 1024) :
    dq x (ix3 b s k) = fq (fun k' => x (ix3 b s k')) k := by
  have ea := splat_apply bcast_S_S8x4096x1024 0x42FE0000#32 (ix3 b s k)
  have eb := splat_apply bcast_S_S8x4096x1024 0xC3000000#32 (ix3 b s k)
  have eL := (lanes_apply (scaleCol x) bcast_S8x4096x1_S8x4096x1024_0_1_2 b s k).trans (scaleCol_apply x b s)
  rw [dq_def, hostDivf_apply, minimumf_apply, maximumf_apply, hostRoundeven_apply, mulf_apply, ea, eb, eL, fq_def]

/-! ## The contraction at an entry -/

theorem lhs_0 (i : S8x4096x1024.Idx) (q : dot_S8x4096x1024_S1024x1024_S8x4096x1024_2_1_01_0_n_n.contr.Idx) :
    (dot_S8x4096x1024_S1024x1024_S8x4096x1024_2_1_01_0_n_n.lhsIdx i q 0).val = (i 0).val := by
  unfold DotDims.lhsIdx
  rw [dif_neg (show ¬(0 : Fin S8x4096x1024.rank) ∈ dot_S8x4096x1024_S1024x1024_S8x4096x1024_2_1_01_0_n_n.lhsBatch by decide), dif_pos (show (0 : Fin S8x4096x1024.rank) ∈ dot_S8x4096x1024_S1024x1024_S8x4096x1024_2_1_01_0_n_n.lhsNonContracting by decide)]
  rfl
theorem lhs_1 (i : S8x4096x1024.Idx) (q : dot_S8x4096x1024_S1024x1024_S8x4096x1024_2_1_01_0_n_n.contr.Idx) :
    (dot_S8x4096x1024_S1024x1024_S8x4096x1024_2_1_01_0_n_n.lhsIdx i q 1).val = (i 1).val := by
  unfold DotDims.lhsIdx
  rw [dif_neg (show ¬(1 : Fin S8x4096x1024.rank) ∈ dot_S8x4096x1024_S1024x1024_S8x4096x1024_2_1_01_0_n_n.lhsBatch by decide), dif_pos (show (1 : Fin S8x4096x1024.rank) ∈ dot_S8x4096x1024_S1024x1024_S8x4096x1024_2_1_01_0_n_n.lhsNonContracting by decide)]
  rfl
theorem lhs_2 (i : S8x4096x1024.Idx) (q : dot_S8x4096x1024_S1024x1024_S8x4096x1024_2_1_01_0_n_n.contr.Idx) :
    (dot_S8x4096x1024_S1024x1024_S8x4096x1024_2_1_01_0_n_n.lhsIdx i q 2).val = (q ⟨0, by decide⟩).val :=
  dot_S8x4096x1024_S1024x1024_S8x4096x1024_2_1_01_0_n_n.lhsIdx_val_of_single rfl i q
theorem rhs_0 (i : S8x4096x1024.Idx) (q : dot_S8x4096x1024_S1024x1024_S8x4096x1024_2_1_01_0_n_n.contr.Idx) :
    (dot_S8x4096x1024_S1024x1024_S8x4096x1024_2_1_01_0_n_n.rhsIdx i q 0).val = (i 2).val := by
  unfold DotDims.rhsIdx
  rw [dif_neg (show ¬(0 : Fin S1024x1024.rank) ∈ dot_S8x4096x1024_S1024x1024_S8x4096x1024_2_1_01_0_n_n.rhsBatch by decide), dif_pos (show (0 : Fin S1024x1024.rank) ∈ dot_S8x4096x1024_S1024x1024_S8x4096x1024_2_1_01_0_n_n.rhsNonContracting by decide)]
  rfl
theorem rhs_1 (i : S8x4096x1024.Idx) (q : dot_S8x4096x1024_S1024x1024_S8x4096x1024_2_1_01_0_n_n.contr.Idx) :
    (dot_S8x4096x1024_S1024x1024_S8x4096x1024_2_1_01_0_n_n.rhsIdx i q 1).val = (q ⟨0, by decide⟩).val :=
  dot_S8x4096x1024_S1024x1024_S8x4096x1024_2_1_01_0_n_n.rhsIdx_val_of_single rfl i q

/-- The contraction at (b, s, o): the sum over the input features k of left (b, s, k) times right (o, k). -/
theorem contraction_apply (l : FVec Ideal S8x4096x1024 .f32) (r : FVec Ideal S1024x1024 .f32) (b : Fin 8) (s : Fin 4096) (o : Fin 1024) :
    Host.dotGeneral dot_S8x4096x1024_S1024x1024_S8x4096x1024_2_1_01_0_n_n none l r (ix3 b s o) = ∑ k : Fin 1024, l (ix3 b s k) * r (ix2 o k) := by
  simp only [Host.dotGeneral]
  rw [Ideal.dotGeneral_apply, ← Equiv.sum_comp (contrEquiv1 dot_S8x4096x1024_S1024x1024_S8x4096x1024_2_1_01_0_n_n 1024 rfl rfl).symm]
  refine Finset.sum_congr rfl fun k _ => ?_
  have hk := contrEquiv1_symm_val dot_S8x4096x1024_S1024x1024_S8x4096x1024_2_1_01_0_n_n 1024 rfl rfl k
  have el : dot_S8x4096x1024_S1024x1024_S8x4096x1024_2_1_01_0_n_n.lhsIdx (ix3 b s o) ((contrEquiv1 dot_S8x4096x1024_S1024x1024_S8x4096x1024_2_1_01_0_n_n 1024 rfl rfl).symm k) = ix3 b s k := funext fun a => Fin.ext (by
    match a with
    | ⟨0, _⟩ => exact lhs_0 _ _
    | ⟨1, _⟩ => exact lhs_1 _ _
    | ⟨2, _⟩ => exact (lhs_2 _ _).trans hk)
  have er : dot_S8x4096x1024_S1024x1024_S8x4096x1024_2_1_01_0_n_n.rhsIdx (ix3 b s o) ((contrEquiv1 dot_S8x4096x1024_S1024x1024_S8x4096x1024_2_1_01_0_n_n 1024 rfl rfl).symm k) = ix2 o k := funext fun a => Fin.ext (by
    match a with
    | ⟨0, _⟩ => exact rhs_0 _ _
    | ⟨1, _⟩ => exact (rhs_1 _ _).trans hk)
  rw [el, er]

/-! ## The result -/

theorem result_def (x : FVec Ideal S8x4096x1024 .f32) (pw : IVec S262144 32) (ws : FVec Ideal S1 .f32) (bias : FVec Ideal S1024 .f32) :
    result x pw ws bias =
  addf
    (Host.dotGeneral (φ₁ := .f32) (φ₂ := .f32) dot_S8x4096x1024_S1024x1024_S8x4096x1024_2_1_01_0_n_n none (dq x)
      (Cert.Weights.weights (F := Ideal) (fun i => lit0 (S4.rowMajor i)) pw ws))
    (broadcastInDim S8x4096x1024 ![0, 1, 2] bcast_S1x1x1024_S8x4096x1024_0_1_2
      (broadcastInDim S1x1x1024 ![2] bcast_S1024_S1x1x1024_2 bias)) := rfl

/-- The table of shift amounts is the one the weight chain is stated over. -/
theorem shifts_eq (x : Fin 4) : lit0 x = Cert.Weights.shifts x := by
  fin_cases x <;> rfl

/-- The reference's result is the layer `Quant.out` of the activations, the weight table and the bias. -/
theorem result_eq (x : FVec Ideal S8x4096x1024 .f32) (pw : IVec S262144 32) (ws : FVec Ideal S1 .f32) (bias : FVec Ideal S1024 .f32) :
    result x pw ws bias
      = out x (Cert.Weights.weights (F := Ideal) (fun i => Cert.Weights.shifts (Cert.Weights.S4.rowMajor i)) pw ws) bias := by
  have hw : Cert.Weights.weights (F := Ideal) (fun i => lit0 (S4.rowMajor i)) pw ws
      = Cert.Weights.weights (F := Ideal) (fun i => Cert.Weights.shifts (Cert.Weights.S4.rowMajor i)) pw ws :=
    congrArg (fun t => Cert.Weights.weights (F := Ideal) t pw ws) (funext fun i => shifts_eq _)
  funext j
  obtain ⟨b, s, o, rfl⟩ : ∃ (b : Fin 8) (s : Fin 4096) (o : Fin 1024), j = ix3 b s o := ⟨j 0, j 1, j 2, eq_ix3 j⟩
  rw [out_ix3, ← hw]
  rw [result_def, addf_apply]
  have e1 := contraction_apply (dq x) (Cert.Weights.weights (F := Ideal) (fun i => lit0 (S4.rowMajor i)) pw ws) b s o
  have e2 := bias_apply bias bcast_S1024_S1x1x1024_2 bcast_S1x1x1024_S8x4096x1024_0_1_2 b s o
  rw [e1, e2]
  refine congrArg (· + bias (ix1 o)) (Finset.sum_congr rfl fun k _ => ?_)
  rw [dq_apply]

end Cert.ReferenceIdeal.RefValue

end
-- ==== Proof.RefOut.lean ====
/-
  The reference's run, with its result named: the fold of its forty-five operations at the result buffer is the
  composition `RefValue.result` of the argument arrays, and at an argument buffer it is the argument; so every
  execution ends with the result at `Quant.out` of the arguments and the weight table.
-/
import proofs.«430797_j53987738911497_1_alg».proof.Proof.RefRun
import proofs.«430797_j53987738911497_1_alg».proof.Proof.RefValue

noncomputable section

namespace Cert.ReferenceIdeal.RefOut

open Cert.ReferenceIdeal Cert.ReferenceIdeal.Gen Cert.ReferenceIdeal.RefRun Cert.ReferenceIdeal.RefValue
open Idealize.ShloMosaic Idealize.ShloMosaic.TcCoe Idealize.SL.Sem Idealize.ShloMosaic.StableHlo Cert.Quant

/-- The operations' fold at the result buffer is that composition of the argument arrays: with the stages and the
    weight chain written out, the two sides differ only by the clip's two identity conversions and by how the two
    reshapes' target shapes are spelt. -/
theorem out_eq (V : Valuation τ sig (Elt Ideal)) :
    after (ops (F := Ideal)) V (main_v31 : DevRef τ sig)
      = result (V (main_arg0 : DevRef τ sig)) (V (main_arg1 : DevRef τ sig)) (V (main_arg2 : DevRef τ sig))
          (V (main_arg3 : DevRef τ sig)) := by
  rw [result_def, dq_def, scaleCol_def]
  unfold Cert.Weights.weights
  after_results_simp
  rfl

theorem arg0_eq (V : Valuation τ sig (Elt Ideal)) : after (ops (F := Ideal)) V (main_arg0 : DevRef τ sig) = V (main_arg0 : DevRef τ sig) := by
  after_results_simp
theorem arg1_eq (V : Valuation τ sig (Elt Ideal)) : after (ops (F := Ideal)) V (main_arg1 : DevRef τ sig) = V (main_arg1 : DevRef τ sig) := by
  after_results_simp
theorem arg2_eq (V : Valuation τ sig (Elt Ideal)) : after (ops (F := Ideal)) V (main_arg2 : DevRef τ sig) = V (main_arg2 : DevRef τ sig) := by
  after_results_simp
theorem arg3_eq (V : Valuation τ sig (Elt Ideal)) : after (ops (F := Ideal)) V (main_arg3 : DevRef τ sig) = V (main_arg3 : DevRef τ sig) := by
  after_results_simp

/-- The reference runs, and ends with its result at `Quant.out` of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v31)
        = out (m ((c.tc : Thread nD τ).loc main_arg0))
            (Cert.Weights.weights (F := Ideal) (fun i => Cert.Weights.shifts (Cert.Weights.S4.rowMajor i))
              (m ((c.tc : Thread nD τ).loc main_arg1)) (m ((c.tc : Thread nD τ).loc main_arg2)))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c main_v31).trans ((out_eq (launchContents m c)).trans (result_eq _ _ _ _)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_all m ρ)

end Cert.ReferenceIdeal.RefOut

end
-- ==== Proof.lean ====
/-
  The five claims for the 1.58-bit quantised linear layer: a kernel that fake-quantises each activation row to
  eight bits (per-row scale 127 / max(max |x|, ε), round half to even, clip to [−128, 127], divide by the scale again)
  and multiplies 512 rows at a time by the resident, transposed weight table, against a reference that does the same
  to the whole [8, 4096, 1024] array and contracts it with the weight table over the input features.

  Over the extended reals both results are, at (b, s, o), Σ_k fq(x b s) k · table(o, k) + bias(o) (`Quant.out`), where the
  weight table is the same function of the packed words and the scale on both sides (`Weights.weights`: the two programs
  apply the same host operations in the same order, so the table is never opened).  The two sums run over the same 1024
  terms in the same order, the products have the same factors in the same order, and no law that could fail at an
  infinity is used, so the precondition is never opened.

  The kernel program's frames are the generated ones; the reference has no kernel, and its frame is its run with the
  result dropped.  The idealisation rewrote nothing, so `preserves` is trivial.
-/
import proofs.«430797_j53987738911497_1_alg».proof.Defs
import proofs.«430797_j53987738911497_1_alg».proof.Proof.Gen.Kernel
import proofs.«430797_j53987738911497_1_alg».proof.Proof.Gen.Kernel.Skeleton
import proofs.«430797_j53987738911497_1_alg».proof.Proof.Gen.Kernel.Launch
import proofs.«430797_j53987738911497_1_alg».proof.Proof.Gen.Kernel.Points
import proofs.«430797_j53987738911497_1_alg».proof.Proof.Gen.Kernel.Frame
import proofs.«430797_j53987738911497_1_alg».proof.Proof.Gen.KernelIdeal
import proofs.«430797_j53987738911497_1_alg».proof.Proof.Gen.KernelIdeal.Skeleton
import proofs.«430797_j53987738911497_1_alg».proof.Proof.Gen.KernelIdeal.Launch
import proofs.«430797_j53987738911497_1_alg».proof.Proof.Gen.KernelIdeal.Points
import proofs.«430797_j53987738911497_1_alg».proof.Proof.Gen.KernelIdeal.Frame
import proofs.«430797_j53987738911497_1_alg».proof.Proof.Gen.ReferenceIdeal
import proofs.«430797_j53987738911497_1_alg».proof.Proof.Gen.Pre_finite_inputs
import proofs.«430797_j53987738911497_1_alg».proof.Proof.KerResult
import proofs.«430797_j53987738911497_1_alg».proof.Proof.RefOut
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.RefOut.run m ρ)

theorem preserves : Cert.preserves_Kernel_KernelIdeal := trivial

/-- Both programs end with `Quant.out` of the activations, the weight table and the bias; from memories that agree on
    the four arguments these are one array. -/
theorem algebraic : Cert.algebraic_KernelIdeal_ReferenceIdeal := by
  intro m ρ m' ρ' _ hagree
  refine ⟨_, Cert.KernelIdeal.KerResult.run m ρ, ?_⟩
  refine (θ_run Cert.ReferenceIdeal.defs _ _).mono (fun _ h c => ⟨(h c).1.trans ?_, (h c).2⟩)
    (Cert.ReferenceIdeal.RefOut.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
